-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x544 : Shape := ⟨2, ![16384, 544]⟩
abbrev S16x128 : Shape := ⟨2, ![16, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S96x256 : Shape := ⟨2, ![96, 256]⟩
abbrev S256 : Shape := ⟨1, ![256]⟩
abbrev S256x16 : Shape := ⟨2, ![256, 16]⟩
abbrev S16 : Shape := ⟨1, ![16]⟩
abbrev S_ : Shape := ⟨0, ![]⟩

class Facts : Prop where
  bcast_S_S16384x544 : S_.BroadcastsInDim S16384x544 (![] : Fin 0 → Fin S16384x544.rank)
  reducesTo_S16384x544_S_d0_1 : S16384x544.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S96x256 : S_.BroadcastsInDim S96x256 (![] : Fin 0 → Fin S96x256.rank)
  reducesTo_S96x256_S_d0_1 : S96x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg7 : FVec F S96x256 .f32) (main_arg8 : FVec F S256 .f32) (main_arg9 : FVec F S256x16 .f32) (main_arg10 : FVec F S16 .f32) (main_v33 : IVec S_ 1) : IVec S_ 1 :=
  let main_v34 : FVec F S96x256 .f32 := Host.absf main_arg7
  let main_cst_12 : FVec F S_ .f32 := constant S_ .f32 0x7F800000#32
  let main_v35 : FVec F S96x256 .f32 := broadcastInDim S96x256 ![] bcast_S_S96x256 main_cst_12
  let main_v36 : IVec S96x256 1 := cmpf .olt main_v34 main_v35
  let main_c_13 : IVec S_ 1 := constantI S_ 1 1#1
  let main_v37 : IVec S_ 1 := (fun x v => Host.reduce IntOp.andi x v reducesTo_S96x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x16 .f32 := Host.absf main_arg9
  let main_cst_16 : FVec F S_ .f32 := constant S_ .f32 0x7F800000#32
  let main_v45 : FVec F S256x16 .f32 := broadcastInDim S256x16 ![] bcast_S_S256x16 main_cst_16
  let main_v46 : IVec S256x16 1 := cmpf .olt main_v44 main_v45
  let main_c_17 : IVec S_ 1 := constantI S_ 1 1#1
  let main_v47 : IVec S_ 1 := (fun x v => Host.reduce IntOp.andi x v reducesTo_S256x16_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg4 : FVec F S128 .f32) (main_arg5 : FVec F S128x64 .f32) (main_arg6 : FVec F S64 .f32) (main_arg7 : FVec F S96x256 .f32) (main_arg8 : FVec F S256 .f32) (main_arg9 : FVec F S256x16 .f32) (main_arg10 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x544 .f32) (main_arg1 : FVec F S16x128 .f32) (main_arg2 : FVec F S128 .f32) (main_arg3 : FVec F S128x128 .f32) (main_arg4 : FVec F S128 .f32) (main_arg5 : FVec F S128x64 .f32) (main_arg6 : FVec F S64 .f32) (main_arg7 : FVec F S96x256 .f32) (main_arg8 : FVec F S256 .f32) (main_arg9 : FVec F S256x16 .f32) (main_arg10 : FVec F S16 .f32) : IVec S_ 1 :=
  let main_v0 : FVec F S16384x544 .f32 := Host.absf main_arg0
  let main_cst : FVec F S_ .f32 := constant S_ .f32 0x7F800000#32
  let main_v1 : FVec F S16384x544 .f32 := broadcastInDim S16384x544 ![] bcast_S_S16384x544 main_cst
  let main_v2 : IVec S16384x544 1 := cmpf .olt main_v0 main_v1
  let main_c : IVec S_ 1 := constantI S_ 1 1#1
  let main_v3 : IVec S_ 1 := (fun x v => Host.reduce IntOp.andi x v reducesTo_S16384x544_S_d0_1 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S16384x544 : Shape := ⟨2, ![16384, 544]⟩
abbrev S16x128 : Shape := ⟨2, ![16, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S96x256 : Shape := ⟨2, ![96, 256]⟩
abbrev S256 : Shape := ⟨1, ![256]⟩
abbrev S256x16 : Shape := ⟨2, ![256, 16]⟩
abbrev S16 : Shape := ⟨1, ![16]⟩
abbrev S16384x16 : Shape := ⟨2, ![16384, 16]⟩
abbrev S16384x512 : Shape := ⟨2, ![16384, 512]⟩
abbrev S16384x32x16 : Shape := ⟨3, ![16384, 32, 16]⟩
abbrev S256x32x16 : Shape := ⟨3, ![256, 32, 16]⟩
abbrev S8192x16 : Shape := ⟨2, ![8192, 16]⟩
abbrev S8192x128 : Shape := ⟨2, ![8192, 128]⟩
abbrev S1x128 : Shape := ⟨2, ![1, 128]⟩
abbrev S8192x64 : Shape := ⟨2, ![8192, 64]⟩
abbrev S1x64 : Shape := ⟨2, ![1, 64]⟩
abbrev S256x32x64 : Shape := ⟨3, ![256, 32, 64]⟩
abbrev S256x64 : Shape := ⟨2, ![256, 64]⟩
abbrev S256x96 : Shape := ⟨2, ![256, 96]⟩
abbrev S256x256 : Shape := ⟨2, ![256, 256]⟩
abbrev S1x256 : Shape := ⟨2, ![1, 256]⟩
abbrev S1x16 : Shape := ⟨2, ![1, 16]⟩

abbrev nBuf : Space → Nat
  | .hbm => 16
  | .vmem => 18
  | .smem => 0
  | _ => 0

abbrev bufTy : (tb : Table) → Fin (tcTables nBuf tb) → BufTy
  | .hbm, ⟨0, _⟩ => ⟨S16384x544, .f32⟩
  | .hbm, ⟨1, _⟩ => ⟨S16x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S96x256, .f32⟩
  | .hbm, ⟨8, _⟩ => ⟨S256, .f32⟩
  | .hbm, ⟨9, _⟩ => ⟨S256x16, .f32⟩
  | .hbm, ⟨10, _⟩ => ⟨S16, .f32⟩
  | .hbm, ⟨11, _⟩ => ⟨S16384x16, .f32⟩
  | .hbm, ⟨12, _⟩ => ⟨S16384x16, .f32⟩
  | .hbm, ⟨13, _⟩ => ⟨S16384x512, .f32⟩
  | .hbm, ⟨14, _⟩ => ⟨S16384x32x16, .f32⟩
  | .hbm, ⟨15, _⟩ => ⟨S16384x16, .f32⟩
  | .local _ .vmem, ⟨0, _⟩ => ⟨S256x16, .f32⟩
  | .local _ .vmem, ⟨1, _⟩ => ⟨S256x16, .f32⟩
  | .local _ .vmem, ⟨2, _⟩ => ⟨S256x16, .f32⟩
  | .local _ .vmem, ⟨3, _⟩ => ⟨S256x16, .f32⟩
  | .local _ .vmem, ⟨4, _⟩ => ⟨S256x32x16, .f32⟩
  | .local _ .vmem, ⟨5, _⟩ => ⟨S256x32x16, .f32⟩
  | .local _ .vmem, ⟨6, _⟩ => ⟨S16x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128x64, .f32⟩
  | .local _ .vmem, ⟨11, _⟩ => ⟨S64, .f32⟩
  | .local _ .vmem, ⟨12, _⟩ => ⟨S96x256, .f32⟩
  | .local _ .vmem, ⟨13, _⟩ => ⟨S256, .f32⟩
  | .local _ .vmem, ⟨14, _⟩ => ⟨S256x16, .f32⟩
  | .local _ .vmem, ⟨15, _⟩ => ⟨S16, .f32⟩
  | .local _ .vmem, ⟨16, _⟩ => ⟨S256x16, .f32⟩
  | .local _ .vmem, ⟨17, _⟩ => ⟨S256x16, .f32⟩
  | _, _ => ⟨S16384x544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S96x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S16384x544_S16384x16_0_0 : S16384x544.Slices ![0, 0] S16384x16
  slices_S16384x544_S16384x16_0_16 : S16384x544.Slices ![0, 16] S16384x16
  slices_S16384x544_S16384x512_0_32 : S16384x544.Slices ![0, 32] S16384x512
  shapeCasts_S16384x512_S16384x32x16 : S16384x512.ShapeCasts S16384x32x16
  inb_S256x32x16_S256x32x16_0_0_0 : ∀ a, (![0, 0, 0] : Fin 3 → Nat) a + S256x32x16.size a ≤ S256x32x16.size a
  h_S256x32x16 : 0 < S256x32x16.numel
  shapeCasts_S256x32x16_S256x32x16 : S256x32x16.ShapeCasts S256x32x16
  shapeCasts_S256x32x16_S8192x16 : S256x32x16.ShapeCasts S8192x16
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  shapeCasts_S8192x64_S256x32x64 : S8192x64.ShapeCasts S256x32x64
  reduces_S256x32x64_S256x64 : S256x32x64.Reduces [1] S256x64
  inb_S256x16_S256x16_0_0 : ∀ a, (![0, 0] : Fin 2 → Nat) a + S256x16.size a ≤ S256x16.size a
  h_S256x16 : 0 < S256x16.numel
  shapeCasts_S256x16_S256x16 : S256x16.ShapeCasts S256x16
  concatenates_S256x16_S256x16_S256x64_S256x96_d1 : Shape.Concatenates [S256x16, S256x16, S256x64] S256x96 1
  inb_S96x256_S96x256_0_0 : ∀ a, (![0, 0] : Fin 2 → Nat) a + S96x256.size a ≤ S96x256.size a
  h_S96x256 : 0 < S96x256.numel
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  inb_S16_S16_0 : ∀ a, (![0] : Fin 1 → Nat) a + S16.size a ≤ S16.size a
  h_S16 : 0 < S16.numel
  shapeCasts_S16_S1x16 : S16.ShapeCasts S1x16
  broadcasts_S1x16_S256x16 : S1x16.Broadcasts S256x16
  dot_S8192x16_S16x128_S8192x128_1_0_0_1_n_n_wf : DotDims.WF S8192x16 S16x128 S8192x128 [1] [0] [0] [1] [] []
  dot_S8192x128_S128x128_S8192x128_1_0_0_1_n_n_wf : DotDims.WF S8192x128 S128x128 S8192x128 [1] [0] [0] [1] [] []
  dot_S8192x128_S128x64_S8192x64_1_0_0_1_n_n_wf : DotDims.WF S8192x128 S128x64 S8192x64 [1] [0] [0] [1] [] []
  dot_S256x96_S96x256_S256x256_1_0_0_1_n_n_wf : DotDims.WF S256x96 S96x256 S256x256 [1] [0] [0] [1] [] []
  dot_S256x256_S256x16_S256x16_1_0_0_1_n_n_wf : DotDims.WF S256x256 S256x16 S256x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16.size a ≤ S16384x16.size a
  hwx0_0 : ∀ i : grid0.Coords, EltTy.bits .f32 = 32 ∨ (Rect.block (s := S16384x16) S256x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S16384x16.size a
  hwx0_1 : ∀ i : grid0.Coords, EltTy.bits .f32 = 32 ∨ (Rect.block (s := S16384x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32x16.size a ≤ S16384x32x16.size a
  hwx0_2 : ∀ i : grid0.Coords, EltTy.bits .f32 = 32 ∨ (Rect.block (s := S16384x32x16) S256x32x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S96x256.size a ≤ S96x256.size a
  hwx0_9 : ∀ i : grid0.Coords, EltTy.bits .f32 = 32 ∨ (Rect.block (s := S96x256) S96x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x16.size a ≤ S256x16.size a
  hwx0_11 : ∀ i : grid0.Coords, EltTy.bits .f32 = 32 ∨ (Rect.block (s := S256x16) S256x16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S16.size a ≤ S16.size a
  hwx0_12 : ∀ i : grid0.Coords, EltTy.bits .f32 = 32 ∨ (Rect.block (s := S16) S16.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x16.size a ≤ S16384x16.size a
  hwx0_13 : ∀ i : grid0.Coords, EltTy.bits .f32 = 32 ∨ (Rect.block (s := S16384x16) S256x16.size (cc0_transform_13 i) (hinb0_13 i)).WholeWords (EltTy.packing .f32)

variable [Facts₀]

def dot_S8192x16_S16x128_S8192x128_1_0_0_1_n_n : DotDims S8192x16 S16x128 S8192x128 where
  lhsContracting := [1]
  rhsContracting := [0]
  lhsNonContracting := [0]
  rhsNonContracting := [1]
  lhsBatch := []
  rhsBatch := []
  wf := dot_S8192x16_S16x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S256x96_S96x256_S256x256_1_0_0_1_n_n : DotDims S256x96 S96x256 S256x256 where
  lhsContracting := [1]
  rhsContracting := [0]
  lhsNonContracting := [0]
  rhsNonContracting := [1]
  lhsBatch := []
  rhsBatch := []
  wf := dot_S256x96_S96x256_S256x256_1_0_0_1_n_n_wf
def dot_S256x256_S256x16_S256x16_1_0_0_1_n_n : DotDims S256x256 S256x16 S256x16 where
  lhsContracting := [1]
  rhsContracting := [0]
  lhsNonContracting := [0]
  rhsNonContracting := [1]
  lhsBatch := []
  rhsBatch := []
  wf := dot_S256x256_S256x16_S256x16_1_0_0_1_n_n_wf

abbrev win0_0 : Pipeline.Window sig grid0 :=
  Pipeline.Window.ofSpec (Memref.whole main_v0) S256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x32x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S96x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S256x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v4) S256x16.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x544 : Shape := ⟨2, ![16384, 544]⟩
abbrev S16x128 : Shape := ⟨2, ![16, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S96x256 : Shape := ⟨2, ![96, 256]⟩
abbrev S256 : Shape := ⟨1, ![256]⟩
abbrev S256x16 : Shape := ⟨2, ![256, 16]⟩
abbrev S16 : Shape := ⟨1, ![16]⟩
abbrev S16384x16 : Shape := ⟨2, ![16384, 16]⟩
abbrev S16384x512 : Shape := ⟨2, ![16384, 512]⟩
abbrev S16384x32x16 : Shape := ⟨3, ![16384, 32, 16]⟩
abbrev S16384x32x128 : Shape := ⟨3, ![16384, 32, 128]⟩
abbrev S1x1x128 : Shape := ⟨3, ![1, 1, 128]⟩
abbrev S_ : Shape := ⟨0, ![]⟩
abbrev S16384x32x64 : Shape := ⟨3, ![16384, 32, 64]⟩
abbrev S1x1x64 : Shape := ⟨3, ![1, 1, 64]⟩
abbrev S16384x64 : Shape := ⟨2, ![16384, 64]⟩
abbrev S16384x96 : Shape := ⟨2, ![16384, 96]⟩
abbrev S16384x256 : Shape := ⟨2, ![16384, 256]⟩
abbrev S1x256 : Shape := ⟨2, ![1, 256]⟩
abbrev S1x16 : Shape := ⟨2, ![1, 16]⟩

abbrev nBuf : Space → Nat
  | .hbm => 47
  | .vmem => 0
  | .smem => 0
  | _ => 0

abbrev bufTy : (tb : Table) → Fin (tcTables nBuf tb) → BufTy
  | .hbm, ⟨0, _⟩ => ⟨S16384x544, .f32⟩
  | .hbm, ⟨1, _⟩ => ⟨S16x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S96x256, .f32⟩
  | .hbm, ⟨8, _⟩ => ⟨S256, .f32⟩
  | .hbm, ⟨9, _⟩ => ⟨S256x16, .f32⟩
  | .hbm, ⟨10, _⟩ => ⟨S16, .f32⟩
  | .hbm, ⟨11, _⟩ => ⟨S16384x16, .f32⟩
  | .hbm, ⟨12, _⟩ => ⟨S16384x16, .f32⟩
  | .hbm, ⟨13, _⟩ => ⟨S16384x512, .f32⟩
  | .hbm, ⟨14, _⟩ => ⟨S16384x32x16, .f32⟩
  | .hbm, ⟨15, _⟩ => ⟨S16384x32x128, .f32⟩
  | .hbm, ⟨16, _⟩ => ⟨S1x1x128, .f32⟩
  | .hbm, ⟨17, _⟩ => ⟨S16384x32x128, .f32⟩
  | .hbm, ⟨18, _⟩ => ⟨S16384x32x128, .f32⟩
  | .hbm, ⟨19, _⟩ => ⟨S_, .f32⟩
  | .hbm, ⟨20, _⟩ => ⟨S16384x32x128, .f32⟩
  | .hbm, ⟨21, _⟩ => ⟨S16384x32x128, .f32⟩
  | .hbm, ⟨22, _⟩ => ⟨S16384x32x128, .f32⟩
  | .hbm, ⟨23, _⟩ => ⟨S1x1x128, .f32⟩
  | .hbm, ⟨24, _⟩ => ⟨S16384x32x128, .f32⟩
  | .hbm, ⟨25, _⟩ => ⟨S16384x32x128, .f32⟩
  | .hbm, ⟨26, _⟩ => ⟨S_, .f32⟩
  | .hbm, ⟨27, _⟩ => ⟨S16384x32x128, .f32⟩
  | .hbm, ⟨28, _⟩ => ⟨S16384x32x128, .f32⟩
  | .hbm, ⟨29, _⟩ => ⟨S16384x32x64, .f32⟩
  | .hbm, ⟨30, _⟩ => ⟨S1x1x64, .f32⟩
  | .hbm, ⟨31, _⟩ => ⟨S16384x32x64, .f32⟩
  | .hbm, ⟨32, _⟩ => ⟨S16384x32x64, .f32⟩
  | .hbm, ⟨33, _⟩ => ⟨S_, .f32⟩
  | .hbm, ⟨34, _⟩ => ⟨S16384x64, .f32⟩
  | .hbm, ⟨35, _⟩ => ⟨S16384x96, .f32⟩
  | .hbm, ⟨36, _⟩ => ⟨S16384x256, .f32⟩
  | .hbm, ⟨37, _⟩ => ⟨S1x256, .f32⟩
  | .hbm, ⟨38, _⟩ => ⟨S16384x256, .f32⟩
  | .hbm, ⟨39, _⟩ => ⟨S16384x256, .f32⟩
  | .hbm, ⟨40, _⟩ => ⟨S_, .f32⟩
  | .hbm, ⟨41, _⟩ => ⟨S16384x256, .f32⟩
  | .hbm, ⟨42, _⟩ => ⟨S16384x256, .f32⟩
  | .hbm, ⟨43, _⟩ => ⟨S16384x16, .f32⟩
  | .hbm, ⟨44, _⟩ => ⟨S1x16, .f32⟩
  | .hbm, ⟨45, _⟩ => ⟨S16384x16, .f32⟩
  | .hbm, ⟨46, _⟩ => ⟨S16384x16, .f32⟩
  | _, _ => ⟨S16384x544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_cst : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call1_cst : Ref sig .tc := ⟨.hbm, 26, rfl⟩
abbrev main_call1_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call2_cst : Ref sig .tc := ⟨.hbm, 40, rfl⟩
abbrev main_call2_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]

class Facts₀ : Prop where
  slices_S16384x544_S16384x16_0_0 : S16384x544.Slices ![0, 0] S16384x16
  slices_S16384x544_S16384x16_0_16 : S16384x544.Slices ![0, 16] S16384x16
  slices_S16384x544_S16384x512_0_32 : S16384x544.Slices ![0, 32] S16384x512
  shapeCasts_S16384x512_S16384x32x16 : S16384x512.ShapeCasts S16384x32x16
  bcast_S128_S1x1x128_2 : S128.BroadcastsInDim S1x1x128 (![2] : Fin 1 → Fin S1x1x128.rank)
  bcast_S1x1x128_S16384x32x128_0_1_2 : S1x1x128.BroadcastsInDim S16384x32x128 (![0, 1, 2] : Fin 3 → Fin S16384x32x128.rank)
  bcast_S_S16384x32x128 : S_.BroadcastsInDim S16384x32x128 (![] : Fin 0 → Fin S16384x32x128.rank)
  bcast_S64_S1x1x64_2 : S64.BroadcastsInDim S1x1x64 (![2] : Fin 1 → Fin S1x1x64.rank)
  bcast_S1x1x64_S16384x32x64_0_1_2 : S1x1x64.BroadcastsInDim S16384x32x64 (![0, 1, 2] : Fin 3 → Fin S16384x32x64.rank)
  reducesTo_S16384x32x64_S16384x64_d1 : S16384x32x64.ReducesTo [1] S16384x64
  h_S_ : 0 < S_.numel
  concatenates_S16384x16_S16384x16_S16384x64_S16384x96_d1 : Shape.Concatenates [S16384x16, S16384x16, S16384x64] S16384x96 1
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  dot_S16384x32x16_S16x128_S16384x32x128_2_0_01_1_n_n_wf : DotDims.WF S16384x32x16 S16x128 S16384x32x128 [2] [0] [0, 1] [1] [] []
  dot_S16384x32x128_S128x128_S16384x32x128_2_0_01_1_n_n_wf : DotDims.WF S16384x32x128 S128x128 S16384x32x128 [2] [0] [0, 1] [1] [] []
  dot_S16384x32x128_S128x64_S16384x32x64_2_0_01_1_n_n_wf : DotDims.WF S16384x32x128 S128x64 S16384x32x64 [2] [0] [0, 1] [1] [] []
  dot_S16384x96_S96x256_S16384x256_1_0_0_1_n_n_wf : DotDims.WF S16384x96 S96x256 S16384x256 [1] [0] [0] [1] [] []
  dot_S16384x256_S256x16_S16384x16_1_0_0_1_n_n_wf : DotDims.WF S16384x256 S256x16 S16384x16 [1] [0] [0] [1] [] []

variable [Facts₀]

def dot_S16384x32x16_S16x128_S16384x32x128_2_0_01_1_n_n : DotDims S16384x32x16 S16x128 S16384x32x128 where
  lhsContracting := [2]
  rhsContracting := [0]
  lhsNonContracting := [0, 1]
  rhsNonContracting := [1]
  lhsBatch := []
  rhsBatch := []
  wf := dot_S16384x32x16_S16x128_S16384x32x128_2_0_01_1_n_n_wf
def dot_S16384x32x128_S128x128_S16384x32x128_2_0_01_1_n_n : DotDims S16384x32x128 S128x128 S16384x32x128 where
  lhsContracting := [2]
  rhsContracting := [0]
  lhsNonContracting := [0, 1]
  rhsNonContracting := [1]
  lhsBatch := []
  rhsBatch := []
  wf := dot_S16384x32x128_S128x128_S16384x32x128_2_0_01_1_n_n_wf
def dot_S16384x32x128_S128x64_S16384x32x64_2_0_01_1_n_n : DotDims S16384x32x128 S128x64 S16384x32x64 where
  lhsContracting := [2]
  rhsContracting := [0]
  lhsNonContracting := [0, 1]
  rhsNonContracting := [1]
  lhsBatch := []
  rhsBatch := []
  wf := dot_S16384x32x128_S128x64_S16384x32x64_2_0_01_1_n_n_wf
def dot_S16384x96_S96x256_S16384x256_1_0_0_1_n_n : DotDims S16384x96 S96x256 S16384x256 where
  lhsContracting := [1]
  rhsContracting := [0]
  lhsNonContracting := [0]
  rhsNonContracting := [1]
  lhsBatch := []
  rhsBatch := []
  wf := dot_S16384x96_S96x256_S16384x256_1_0_0_1_n_n_wf
def dot_S16384x256_S256x16_S16384x16_1_0_0_1_n_n : DotDims S16384x256 S256x16 S16384x16 where
  lhsContracting := [1]
  rhsContracting := [0]
  lhsNonContracting := [0]
  rhsNonContracting := [1]
  lhsBatch := []
  rhsBatch := []
  wf := dot_S16384x256_S256x16_S16384x16_1_0_0_1_n_n_wf

class Facts : Prop extends Facts₀ where

variable [Facts]
-- ==== Proof.Spec.lean ====
/-
  One output row of the set network, as a function of that row of the state array and of the weights.

  A state row holds the agent's own state (16 numbers), the goal state (16 numbers) and 32 neighbour states of 16
  numbers each. Every neighbour state goes through the same three affine layers (16 → 128 → 128 → 64), the first two
  followed by a maximum with zero; the 32 results are added coordinate by coordinate; the 64 sums are appended to the
  own and goal states, giving 96 features; two more affine layers (96 → 256, maximum with zero, 256 → 16) give the row
  of the result. All of it is over the extended reals, where an affine layer is a finite sum of products plus a bias.
-/
import Idealize.ShloMosaic.PureOps.Ideal
import Idealize.ShloMosaic.Lib.ValueIdx

noncomputable section

open scoped BigOperators

namespace Cert.SetPool

open Idealize.ShloMosaic Idealize.ShloMosaic.ValueIdx

/-- The extended real the all-zero f32 word denotes: the threshold of the activation. -/
abbrev zeroWord : EReal := Ideal.ofBits .f32 0x00000000#32

/-- One affine layer on a row `v` of `K` numbers: entry `j` of `v · w + b`. -/
def dense {K N : Nat} (w : (⟨2, ![K, N]⟩ : Shape).Idx → EReal) (b : (⟨1, ![N]⟩ : Shape).Idx → EReal)
    (v : Fin K → EReal) (j : Fin N) : EReal :=
  (∑ k : Fin K, v k * w (ix2 k j)) + b (ix1 j)

/-- The activation: the larger of a number and the zero word's value. -/
def relu (v : EReal) : EReal := max v zeroWord

variable (w0 : (⟨2, ![16, 128]⟩ : Shape).Idx → EReal) (b0 : (⟨1, ![128]⟩ : Shape).Idx → EReal)
  (w1 : (⟨2, ![128, 128]⟩ : Shape).Idx → EReal) (b1 : (⟨1, ![128]⟩ : Shape).Idx → EReal)
  (w2 : (⟨2, ![128, 64]⟩ : Shape).Idx → EReal) (b2 : (⟨1, ![64]⟩ : Shape).Idx → EReal)
  (r0 : (⟨2, ![96, 256]⟩ : Shape).Idx → EReal) (c0 : (⟨1, ![256]⟩ : Shape).Idx → EReal)
  (r1 : (⟨2, ![256, 16]⟩ : Shape).Idx → EReal) (c1 : (⟨1, ![16]⟩ : Shape).Idx → EReal)

/-- The first hidden layer of the per-neighbour network on one neighbour state. -/
def hid1 (u : Fin 16 → EReal) (k : Fin 128) : EReal := relu (dense w0 b0 u k)

/-- Its second hidden layer. -/
def hid2 (u : Fin 16 → EReal) (k : Fin 128) : EReal := relu (dense w1 b1 (hid1 w0 b0 u) k)

/-- The per-neighbour network: three affine layers, the first two activated. -/
def perNeighbour (u : Fin 16 → EReal) (d : Fin 64) : EReal := dense w2 b2 (hid2 w0 b0 w1 b1 u) d

/-- The pooled neighbour features of a row: the per-neighbour outputs added over the 32 neighbours. -/
def pooled (nb : Fin 32 → Fin 16 → EReal) (d : Fin 64) : EReal :=
  ∑ n : Fin 32, perNeighbour w0 b0 w1 b1 w2 b2 (nb n) d

/-- The 96 features of a row: own state, goal state, pooled neighbour features, end to end. -/
def features (own goal : Fin 16 → EReal) (pool : Fin 64 → EReal) (q : Fin 96) : EReal :=
  if h : q.val < 16 then own ⟨q.val, h⟩
  else if h' : q.val < 32 then goal ⟨q.val - 16, by omega⟩
  else pool ⟨q.val - 32, by omega⟩

/-- The hidden layer of the network on the features. -/
def hidR (f : Fin 96 → EReal) (j : Fin 256) : EReal := relu (dense r0 c0 f j)

/-- One row of the result from that row's own state, goal state and neighbour states. -/
def rowOut (own goal : Fin 16 → EReal) (nb : Fin 32 → Fin 16 → EReal) (a : Fin 16) : EReal :=
  dense r1 c1 (hidR r0 c0 (features own goal (pooled w0 b0 w1 b1 w2 b2 nb))) a

/-- The whole result from the three arrays the state array is cut into — own states, goal states, neighbour states —
    row by row. -/
def result (own goal : (⟨2, ![16384, 16]⟩ : Shape).Idx → EReal) (nbs : (⟨3, ![16384, 32, 16]⟩ : Shape).Idx → EReal) :
    (⟨2, ![16384, 16]⟩ : Shape).Idx → EReal := fun i =>
  rowOut w0 b0 w1 b1 w2 b2 r0 c0 r1 c1 (fun s => own (ix2 (i 0) s)) (fun s => goal (ix2 (i 0) s))
    (fun n s => nbs (ix3 (i 0) n s)) (i 1)

end Cert.SetPool

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.LibConcatCols.lean ====
/-
  A concatenation of three matrices side by side (along axis 1), read at an entry.

  `jnp.concatenate([x₁, x₂, x₃], axis=1)` of an `[a, b₁]`, an `[a, b₂]` and an `[a, b₃]` matrix is the `[a, b]` matrix
  (`b = b₁ + b₂ + b₃`) whose row `p` is the three rows laid end to end: column `j` reads `x₁` at `j` when `j < b₁`, `x₂` at
  `j - b₁` when `b₁ ≤ j < b₁ + b₂`, and `x₃` at `j - b₁ - b₂` from there on. One lemma per piece, the caller naming the column
  inside the piece.
-/
import Idealize.ShloMosaic.Lib.Pipeline.Value
import Idealize.ShloMosaic.Lib.ValueIdx

namespace Cert.LibConcatCols

open Idealize.ShloMosaic Idealize.ShloMosaic.ValueIdx

variable {α : Type}

/-- In the first piece's span the concatenation is the first piece. -/
theorem concat3_cols_apply_first {a b₁ b₂ b₃ b : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [(⟨2, ![a, b₁]⟩ : Shape), ⟨2, ![a, b₂]⟩, ⟨2, ![a, b₃]⟩] ⟨2, ![a, b]⟩ 1)
    (p : Fin a) (j : Fin b) (c : Fin b₁) (hj : c.val = j.val) :
    concatenate ⟨2, ![a, b]⟩ 1 [⟨⟨2, ![a, b₁]⟩, x₁⟩, ⟨⟨2, ![a, b₂]⟩, x₂⟩, ⟨⟨2, ![a, b₃]⟩, x₃⟩] h (ix2 p j) = x₁ (ix2 p c) := by
  refine concatenate_apply_piece (t := ⟨2, ![a, b]⟩) (1 : Fin 2) [⟨⟨2, ![a, b₁]⟩, x₁⟩, ⟨⟨2, ![a, b₂]⟩, x₂⟩, ⟨⟨2, ![a, b₃]⟩, x₃⟩] h (ix2 p j) 0
    (Nat.succ_pos 2) ⟨2, ![a, b₁]⟩ x₁ rfl rfl 0 rfl (ix2 p c) ?_ ?_
  · intro d hd
    match d with
    | ⟨0, _⟩ => rfl
    | ⟨1, _⟩ => exact absurd rfl hd
  · show 0 + c.val = j.val
    omega

/-- In the second piece's span the concatenation is the second piece, `b₁` columns back. -/
theorem concat3_cols_apply_second {a b₁ b₂ b₃ b : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [(⟨2, ![a, b₁]⟩ : Shape), ⟨2, ![a, b₂]⟩, ⟨2, ![a, b₃]⟩] ⟨2, ![a, b]⟩ 1)
    (p : Fin a) (j : Fin b) (c : Fin b₂) (hj : b₁ + c.val = j.val) :
    concatenate ⟨2, ![a, b]⟩ 1 [⟨⟨2, ![a, b₁]⟩, x₁⟩, ⟨⟨2, ![a, b₂]⟩, x₂⟩, ⟨⟨2, ![a, b₃]⟩, x₃⟩] h (ix2 p j) = x₂ (ix2 p c) := by
  refine concatenate_apply_piece (t := ⟨2, ![a, b]⟩) (1 : Fin 2) [⟨⟨2, ![a, b₁]⟩, x₁⟩, ⟨⟨2, ![a, b₂]⟩, x₂⟩, ⟨⟨2, ![a, b₃]⟩, x₃⟩] h (ix2 p j) 1
    (Nat.succ_lt_succ (Nat.succ_pos 1)) ⟨2, ![a, b₂]⟩ x₂ rfl rfl b₁ ?_ (ix2 p c) ?_ ?_
  · show ([b₁] : List ℕ).sum = b₁
    simp
  · intro d hd
    match d with
    | ⟨0, _⟩ => rfl
    | ⟨1, _⟩ => exact absurd rfl hd
  · show b₁ + c.val = j.val
    omega

/-- In the third piece's span the concatenation is the third piece, `b₁ + b₂` columns back. -/
theorem concat3_cols_apply_third {a b₁ b₂ b₃ b : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [(⟨2, ![a, b₁]⟩ : Shape), ⟨2, ![a, b₂]⟩, ⟨2, ![a, b₃]⟩] ⟨2, ![a, b]⟩ 1)
    (p : Fin a) (j : Fin b) (c : Fin b₃) (hj : b₁ + b₂ + c.val = j.val) :
    concatenate ⟨2, ![a, b]⟩ 1 [⟨⟨2, ![a, b₁]⟩, x₁⟩, ⟨⟨2, ![a, b₂]⟩, x₂⟩, ⟨⟨2, ![a, b₃]⟩, x₃⟩] h (ix2 p j) = x₃ (ix2 p c) := by
  refine concatenate_apply_piece (t := ⟨2, ![a, b]⟩) (1 : Fin 2) [⟨⟨2, ![a, b₁]⟩, x₁⟩, ⟨⟨2, ![a, b₂]⟩, x₂⟩, ⟨⟨2, ![a, b₃]⟩, x₃⟩] h (ix2 p j) 2
    (Nat.lt_succ_self 2) ⟨2, ![a, b₃]⟩ x₃ rfl rfl (b₁ + b₂) ?_ (ix2 p c) ?_ ?_
  · show ([b₁, b₂] : List ℕ).sum = b₁ + b₂
    simp
  · intro d hd
    match d with
    | ⟨0, _⟩ => rfl
    | ⟨1, _⟩ => exact absurd rfl hd
  · show b₁ + b₂ + c.val = j.val
    omega

end Cert.LibConcatCols
-- ==== Proof.LibStack.lean ====
/-
  A stack of matrices against the tall matrix of all their rows, and a sum over the stack's middle axis.

  A stack `[A, B, C]` of `A` matrices of `B` rows and the tall matrix `[A · B, C]` of all those rows hold the same numbers
  in the same row-major order: row `p · B + n` of the tall matrix is row `n` of matrix `p`. Shape casts either way read
  accordingly at coordinates. An f32 lane sum over the middle axis of the stack, at the extended reals, is at `(p, d)` the
  `Fin`-indexed sum over `n` of the entries `(p, n, d)`.
-/
import Idealize.ShloMosaic.Lib.ValueLayout
import Idealize.ShloMosaic.PureOps.Ideal.Laws

noncomputable section

open scoped BigOperators

namespace Cert.LibStack

open Idealize.ShloMosaic Idealize.ShloMosaic.ValueIdx

/-- A stack `[A, B, C]` flattened to the tall matrix `[R, C]` (`R = A · B`): row `p · B + n` is row `n` of matrix `p`. -/
theorem flatten_apply {α : Type} {A B C R : Nat} (x : (⟨3, ![A, B, C]⟩ : Shape).Idx → α)
    (h : (⟨3, ![A, B, C]⟩ : Shape).ShapeCasts ⟨2, ![R, C]⟩) (p : Fin A) (n : Fin B) (s : Fin C) (r : Fin R)
    (hr : r.val = p.val * B + n.val) : shapeCast ⟨2, ![R, C]⟩ x h (ix2 r s) = x (ix3 p n s) :=
  shapeCast_apply x h _ _ (by
    rw [Shape.rowMajor_val_three, Shape.rowMajor_val_two]
    show (p.val * B + n.val) * C + s.val = r.val * C + s.val
    rw [hr])

/-- The tall matrix `[R, C]` cut back into the stack `[A, B, C]`: row `n` of matrix `p` is row `p · B + n`. -/
theorem unflatten_apply {α : Type} {A B C R : Nat} (y : (⟨2, ![R, C]⟩ : Shape).Idx → α)
    (h : (⟨2, ![R, C]⟩ : Shape).ShapeCasts ⟨3, ![A, B, C]⟩) (p : Fin A) (n : Fin B) (s : Fin C) (r : Fin R)
    (hr : r.val = p.val * B + n.val) : shapeCast ⟨3, ![A, B, C]⟩ y h (ix3 p n s) = y (ix2 r s) :=
  shapeCast_apply y h _ _ (by
    rw [Shape.rowMajor_val_three, Shape.rowMajor_val_two]
    show r.val * C + s.val = (p.val * B + n.val) * C + s.val
    rw [hr])

/-- An f32 lane sum over the middle axis of a stack `[A, B, C]` is, at `(p, d)`, the sum over `n` of the entries `(p, n, d)`. -/
theorem sum_middle_apply {A B C : Nat} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = FKind.add.neutral .f32 hφ) (p : Fin A) (d : Fin C) :
    multiReduction .add [1] ⟨2, ![A, C]⟩ src 0x00000000#32 h hφ hacc (ix2 p d) = ∑ n : Fin B, src (ix3 p n d) :=
  (Ideal.multiReduction_add_single src 0x00000000#32 h hφ hacc (ix2 p d)).trans
    (Finset.sum_congr rfl fun n _ => congrArg src (funext fun ax => Fin.ext (by
      match ax with
      | ⟨0, _⟩ => rfl
      | ⟨1, _⟩ => rfl
      | ⟨2, _⟩ => rfl)))

end Cert.LibStack

end
-- ==== Proof.Layers.lean ====
/-
  The building blocks of the set network read at coordinates.

  An affine layer is, in the kernel, a matrix product into a zero accumulator plus a bias row (a vector cast to a row and
  broadcast over the rows); the activation is a maximum with a splat of the zero word; and the features are three
  matrices side by side. Each is read here at an entry given by its coordinates, as the corresponding piece of the row
  function.
-/
import proofs.«178374_j89816356094668_1_alg».proof.Proof.Spec
import proofs.«178374_j89816356094668_1_alg».proof.Proof.LibDot
import proofs.«178374_j89816356094668_1_alg».proof.Proof.LibConcatCols
import proofs.«178374_j89816356094668_1_alg».proof.Proof.LibStack
import Idealize.ShloMosaic.Lib.ValueLayout
import Idealize.ShloMosaic.PureOps.Ideal.Laws

noncomputable section

open scoped BigOperators

namespace Cert.SetPool

open Idealize.ShloMosaic Idealize.ShloMosaic.ValueIdx

/-- A matrix product of `l` by the weights into a zero accumulator, plus the bias laid as a row over every row, is at
    entry `(a, j)` the affine layer on row `a` of `l`. (Operands narrowed to bf16 first: at the extended reals a change of
    format changes nothing.) -/
theorem matmul_bias_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbr : (⟨2, ![1, N]⟩ : Shape).Broadcasts ⟨2, ![M, N]⟩)
    (a : Fin M) (j : Fin N) :
    addf (matmul d none (truncf .bf16 l hb) (truncf .bf16 w hb) (constant ⟨2, ![M, N]⟩ .f32 0x00000000#32))
        (broadcastTo ⟨2, ![M, N]⟩ (shapeCast ⟨2, ![1, N]⟩ b hc) hbr) (ix2 a j)
      = dense w b (fun k => l (ix2 a k)) j := by
  rw [addf_apply, Cert.LibDot.matmul_zero_apply d h1 h2 h3 h4 h5 h6, broadcastTo_1b_ab_apply, shapeCast_a_1a_apply]
  rfl

/-- The maximum with a splat of the zero word is the activation, entry by entry. -/
theorem max_zero_apply {s : Shape} (v : FVec Ideal s .f32) (i : s.Idx) :
    maximumf v (broadcast s (Scalar.ofBits (F := Ideal) .f32 0x00000000#32)) i = relu (v i) := rfl

/-- Own states, goal states and pooled features side by side are, in row `p`, the features of that row. -/
theorem concat_features_apply {A : Nat} (x₁ x₂ : (⟨2, ![A, 16]⟩ : Shape).Idx → EReal) (x₃ : (⟨2, ![A, 64]⟩ : Shape).Idx → EReal)
    (h : Shape.Concatenates [(⟨2, ![A, 16]⟩ : Shape), ⟨2, ![A, 16]⟩, ⟨2, ![A, 64]⟩] ⟨2, ![A, 96]⟩ 1) (p : Fin A) (q : Fin 96) :
    concatenate ⟨2, ![A, 96]⟩ 1 [⟨⟨2, ![A, 16]⟩, x₁⟩, ⟨⟨2, ![A, 16]⟩, x₂⟩, ⟨⟨2, ![A, 64]⟩, x₃⟩] h (ix2 p q)
      = features (fun s => x₁ (ix2 p s)) (fun s => x₂ (ix2 p s)) (fun d => x₃ (ix2 p d)) q := by
  unfold features
  split_ifs with hq hq'
  · exact Cert.LibConcatCols.concat3_cols_apply_first x₁ x₂ x₃ h p q ⟨q.val, hq⟩ rfl
  · exact Cert.LibConcatCols.concat3_cols_apply_second x₁ x₂ x₃ h p q ⟨q.val - 16, by omega⟩ (by show 16 + (q.val - 16) = q.val; omega)
  · exact Cert.LibConcatCols.concat3_cols_apply_third x₁ x₂ x₃ h p q ⟨q.val - 32, by have := q.isLt; omega⟩
      (by show 16 + 16 + (q.val - 32) = q.val; omega)

end Cert.SetPool

end
-- ==== Proof.KernelRow.lean ====
/-
  The kernel's body on one batch tile, read at an entry.

  The body gets the tile's own states and goal states (256 rows of 16), its neighbour states (a stack of 256 matrices of
  32 rows of 16) and the weights. It flattens the stack to 8192 rows, runs the per-neighbour network on all rows at once
  as three matrix products, cuts the result back into 256 matrices and adds the 32 rows of each: the pooled features.
  These go side by side after the own and goal states, and two more matrix products give the tile's 256 rows of the
  result. Read at row `p`, every step is the corresponding step of the row function on row `p` of the inputs, because a
  matrix product acts on each row of its left operand separately.
-/
import proofs.«178374_j89816356094668_1_alg».proof.Proof.Gen.KernelIdeal.Skeleton
import proofs.«178374_j89816356094668_1_alg».proof.Proof.Layers

noncomputable section

open scoped BigOperators

namespace Cert.KernelIdeal.RowValue

open Cert.KernelIdeal Cert.KernelIdeal.Gen Cert.SetPool Cert.LibStack Idealize.ShloMosaic Idealize.ShloMosaic.ValueIdx

/-- An activated affine layer of the kernel at entry `(a, j)`. -/
theorem hidden_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbr : (⟨2, ![1, N]⟩ : Shape).Broadcasts ⟨2, ![M, N]⟩)
    (a : Fin M) (j : Fin N) :
    maximumf (addf (matmul d none (truncf .bf16 l hb) (truncf .bf16 w hb) (constant ⟨2, ![M, N]⟩ .f32 0x00000000#32))
        (broadcastTo ⟨2, ![M, N]⟩ (shapeCast ⟨2, ![1, N]⟩ b hc) hbr))
      (broadcast ⟨2, ![M, N]⟩ (Scalar.ofBits (F := Ideal) .f32 0x00000000#32)) (ix2 a j)
      = relu (dense w b (fun k => l (ix2 a k)) j) :=
  (max_zero_apply _ _).trans (congrArg relu (matmul_bias_apply d h1 h2 h3 h4 h5 h6 l w b hb hc hbr a j))

/-- The pooled features the body computes for row `p` of the tile: the per-neighbour network on each of that row's 32
    neighbour states, added. -/
theorem pay2_apply (x2 : Vec Ideal S256x32x16 .f32) (w0 : Vec Ideal S16x128 .f32) (b0 : Vec Ideal S128 .f32)
    (w1 : Vec Ideal S128x128 .f32) (b1 : Vec Ideal S128 .f32) (w2 : Vec Ideal S128x64 .f32) (b2 : Vec Ideal S64 .f32)
    (p : Fin 256) (d : Fin 64) :
    k0_pay2 (F := Ideal) x2 w0 b0 w1 b1 w2 b2 (ix2 p d) = pooled w0 b0 w1 b1 w2 b2 (fun n s => x2 (ix3 p n s)) d := by
  unfold k0_pay2
  dsimp only
  refine (sum_middle_apply _ _ _ _ p d).trans ?_
  unfold pooled
  refine Finset.sum_congr rfl fun n _ => ?_
  have hlt : p.val * 32 + n.val < 8192 := by have := p.isLt; have := n.isLt; omega
  have hr : (⟨p.val * 32 + n.val, hlt⟩ : Fin 8192).val = p.val * 32 + n.val := rfl
  refine (unflatten_apply _ _ p n d ⟨p.val * 32 + n.val, hlt⟩ hr).trans ?_
  refine (matmul_bias_apply dot_S8192x128_S128x64_S8192x64_1_0_0_1_n_n rfl rfl rfl rfl rfl rfl _ w2 b2 _ _ _ _ d).trans ?_
  unfold perNeighbour
  refine congrArg (fun v => dense w2 b2 v d) (funext fun k => ?_)
  refine (hidden_apply dot_S8192x128_S128x128_S8192x128_1_0_0_1_n_n rfl rfl rfl rfl rfl rfl _ w1 b1 _ _ _ _ k).trans ?_
  unfold hid2
  refine congrArg relu (congrArg (fun v => dense w1 b1 v k) (funext fun k' => ?_))
  refine (hidden_apply dot_S8192x16_S16x128_S8192x128_1_0_0_1_n_n rfl rfl rfl rfl rfl rfl _ w0 b0 _ _ _ _ k').trans ?_
  unfold hid1
  refine congrArg relu (congrArg (fun v => dense w0 b0 v k') (funext fun s => ?_))
  refine (flatten_apply _ _ p n s ⟨p.val * 32 + n.val, hlt⟩ hr).trans ?_
  exact congrFun (shapeCast_self x2 _) _

/-- The body's stored value at `(p, a)` from the pooled features and the own and goal states it is given. -/
theorem pay1_apply (v32 : FVec Ideal S256x64 .f32) (v34 v36 : FVec Ideal S256x16 .f32) (r0 : Vec Ideal S96x256 .f32)
    (c0 : Vec Ideal S256 .f32) (r1 : Vec Ideal S256x16 .f32) (c1 : Vec Ideal S16 .f32) (p : Fin 256) (a : Fin 16) :
    k0_pay1 (F := Ideal) v32 v34 v36 r0 c0 r1 c1 (ix2 p a)
      = dense r1 c1 (hidR r0 c0 (features (fun s => v34 (ix2 p s)) (fun s => v36 (ix2 p s)) (fun d => v32 (ix2 p d)))) a := by
  unfold k0_pay1
  refine (matmul_bias_apply dot_S256x256_S256x16_S256x16_1_0_0_1_n_n rfl rfl rfl rfl rfl rfl _ r1 c1 _ _ _ p a).trans ?_
  refine congrArg (fun v => dense r1 c1 v a) (funext fun j => ?_)
  refine (hidden_apply dot_S256x96_S96x256_S256x256_1_0_0_1_n_n rfl rfl rfl rfl rfl rfl _ r0 c0 _ _ _ p j).trans ?_
  unfold hidR
  refine congrArg relu (congrArg (fun v => dense r0 c0 v j) (funext fun q => ?_))
  exact concat_features_apply v34 v36 v32 _ p q

/-- Row `p` of what the body stores is the row function of row `p` of its three data blocks. -/
theorem body_row (x0 x1 : Vec Ideal S256x16 .f32) (x2 : Vec Ideal S256x32x16 .f32) (w0 : Vec Ideal S16x128 .f32)
    (b0 : Vec Ideal S128 .f32) (w1 : Vec Ideal S128x128 .f32) (b1 : Vec Ideal S128 .f32) (w2 : Vec Ideal S128x64 .f32)
    (b2 : Vec Ideal S64 .f32) (r0 : Vec Ideal S96x256 .f32) (c0 : Vec Ideal S256 .f32) (r1 : Vec Ideal S256x16 .f32)
    (c1 : Vec Ideal S16 .f32) (p : Fin 256) (a : Fin 16) :
    k0_pay1 (F := Ideal) (k0_pay2 x2 w0 b0 w1 b1 w2 b2) (k0_pay3 x0) (k0_pay4 x1) r0 c0 r1 c1 (ix2 p a)
      = rowOut w0 b0 w1 b1 w2 b2 r0 c0 r1 c1 (fun s => x0 (ix2 p s)) (fun s => x1 (ix2 p s)) (fun n s => x2 (ix3 p n s)) a := by
  refine (pay1_apply _ _ _ r0 c0 r1 c1 p a).trans ?_
  unfold rowOut
  have e3 : k0_pay3 (F := Ideal) x0 = x0 := shapeCast_self x0 _
  have e4 : k0_pay4 (F := Ideal) x1 = x1 := shapeCast_self x1 _
  have e2 : (fun d => k0_pay2 (F := Ideal) x2 w0 b0 w1 b1 w2 b2 (ix2 p d))
      = pooled w0 b0 w1 b1 w2 b2 (fun n s => x2 (ix3 p n s)) := funext fun d => pay2_apply x2 w0 b0 w1 b1 w2 b2 p d
  rw [e3, e4, e2]

end Cert.KernelIdeal.RowValue

end
-- ==== Proof.KernelArray.lean ====
/-
  From the tiles to the whole result array.

  The grid has 64 points; point `t` is given rows `256·t … 256·t + 255` of the own states, of the goal states and of the
  stack of neighbour states, and all of every weight array, and writes rows `256·t … 256·t + 255` of the result. Row `p`
  of what it writes is the row function of row `p` of its data blocks, that is of row `256·t + p` of the three arrays: so
  each point writes its block of ONE array, the row function applied row by row, and the 64 blocks cover the result.
  The three data arrays are the cuts of the state array the host operations before the call make.
-/
import proofs.«178374_j89816356094668_1_alg».proof.Proof.Gen.KernelIdeal.Value
import proofs.«178374_j89816356094668_1_alg».proof.Proof.KernelRow
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.Value Cert.SetPool

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The block indices over the grid: the three data windows and the result window are at block `t` along the rows and
    at block 0 along every other axis. -/
theorem data_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_13.index t (0 : Fin 2) = t.val ∧ win0_13.index t (1 : Fin 2) = 0 :=
  (by decide +kernel : ∀ t : Fin grid0.N, _)

/-- Every weight window is at block 0 on every axis, at every point: its one block is the whole array. -/
theorem weight_idx : ∀ t : Fin cfg0.N,
    (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = 0 ∧ win0_9.index t (1 : Fin 2) = 0)
    ∧ win0_10.index t (0 : Fin 1) = 0
    ∧ (win0_11.index t (0 : Fin 2) = 0 ∧ win0_11.index t (1 : Fin 2) = 0)
    ∧ win0_12.index t (0 : Fin 1) = 0 :=
  (by decide +kernel : ∀ t : Fin grid0.N, _)

/-! ## The weight blocks are the weight arrays -/

theorem blk3 (c : Dev nD) (t : Fin cfg0.N) : (iblk m c 3 t : Vec Ideal S16x128 .f32) = V m c main_arg1 := by
  obtain ⟨⟨e0, e1⟩, -⟩ := weight_idx t
  funext j
  unfold iblk
  rw [View.read_apply]
  show V m c main_arg1 _ = V m c main_arg1 j
  congr 1
  funext a
  apply Fin.ext
  match a with
  | ⟨0, _⟩ => show win0_3.index t (0 : Fin 2) * 16 + 1 * (j 0).val = (j 0).val; rw [e0]; omega
  | ⟨1, _⟩ => show win0_3.index t (1 : Fin 2) * 128 + 1 * (j 1).val = (j 1).val; rw [e1]; omega

theorem blk4 (c : Dev nD) (t : Fin cfg0.N) : (iblk m c 4 t : Vec Ideal S128 .f32) = V m c main_arg2 := by
  obtain ⟨-, e0, -⟩ := weight_idx t
  funext j
  unfold iblk
  rw [View.read_apply]
  show V m c main_arg2 _ = V m c main_arg2 j
  congr 1
  funext a
  apply Fin.ext
  match a with
  | ⟨0, _⟩ => show win0_4.index t (0 : Fin 1) * 128 + 1 * (j 0).val = (j 0).val; rw [e0]; omega

theorem blk5 (c : Dev nD) (t : Fin cfg0.N) : (iblk m c 5 t : Vec Ideal S128x128 .f32) = V m c main_arg3 := by
  obtain ⟨-, -, ⟨e0, e1⟩, -⟩ := weight_idx t
  funext j
  unfold iblk
  rw [View.read_apply]
  show V m c main_arg3 _ = V m c main_arg3 j
  congr 1
  funext a
  apply Fin.ext
  match a with
  | ⟨0, _⟩ => show win0_5.index t (0 : Fin 2) * 128 + 1 * (j 0).val = (j 0).val; rw [e0]; omega
  | ⟨1, _⟩ => show win0_5.index t (1 : Fin 2) * 128 + 1 * (j 1).val = (j 1).val; rw [e1]; omega

theorem blk6 (c : Dev nD) (t : Fin cfg0.N) : (iblk m c 6 t : Vec Ideal S128 .f32) = V m c main_arg4 := by
  obtain ⟨-, -, -, e0, -⟩ := weight_idx t
  funext j
  unfold iblk
  rw [View.read_apply]
  show V m c main_arg4 _ = V m c main_arg4 j
  congr 1
  funext a
  apply Fin.ext
  match a with
  | ⟨0, _⟩ => show win0_6.index t (0 : Fin 1) * 128 + 1 * (j 0).val = (j 0).val; rw [e0]; omega

theorem blk7 (c : Dev nD) (t : Fin cfg0.N) : (iblk m c 7 t : Vec Ideal S128x64 .f32) = V m c main_arg5 := by
  obtain ⟨-, -, -, -, ⟨e0, e1⟩, -⟩ := weight_idx t
  funext j
  unfold iblk
  rw [View.read_apply]
  show V m c main_arg5 _ = V m c main_arg5 j
  congr 1
  funext a
  apply Fin.ext
  match a with
  | ⟨0, _⟩ => show win0_7.index t (0 : Fin 2) * 128 + 1 * (j 0).val = (j 0).val; rw [e0]; omega
  | ⟨1, _⟩ => show win0_7.index t (1 : Fin 2) * 64 + 1 * (j 1).val = (j 1).val; rw [e1]; omega

theorem blk8 (c : Dev nD) (t : Fin cfg0.N) : (iblk m c 8 t : Vec Ideal S64 .f32) = V m c main_arg6 := by
  obtain ⟨-, -, -, -, -, e0, -⟩ := weight_idx t
  funext j
  unfold iblk
  rw [View.read_apply]
  show V m c main_arg6 _ = V m c main_arg6 j
  congr 1
  funext a
  apply Fin.ext
  match a with
  | ⟨0, _⟩ => show win0_8.index t (0 : Fin 1) * 64 + 1 * (j 0).val = (j 0).val; rw [e0]; omega

theorem blk9 (c : Dev nD) (t : Fin cfg0.N) : (iblk m c 9 t : Vec Ideal S96x256 .f32) = V m c main_arg7 := by
  obtain ⟨-, -, -, -, -, -, ⟨e0, e1⟩, -⟩ := weight_idx t
  funext j
  unfold iblk
  rw [View.read_apply]
  show V m c main_arg7 _ = V m c main_arg7 j
  congr 1
  funext a
  apply Fin.ext
  match a with
  | ⟨0, _⟩ => show win0_9.index t (0 : Fin 2) * 96 + 1 * (j 0).val = (j 0).val; rw [e0]; omega
  | ⟨1, _⟩ => show win0_9.index t (1 : Fin 2) * 256 + 1 * (j 1).val = (j 1).val; rw [e1]; omega

theorem blk10 (c : Dev nD) (t : Fin cfg0.N) : (iblk m c 10 t : Vec Ideal S256 .f32) = V m c main_arg8 := by
  obtain ⟨-, -, -, -, -, -, -, e0, -⟩ := weight_idx t
  funext j
  unfold iblk
  rw [View.read_apply]
  show V m c main_arg8 _ = V m c main_arg8 j
  congr 1
  funext a
  apply Fin.ext
  match a with
  | ⟨0, _⟩ => show win0_10.index t (0 : Fin 1) * 256 + 1 * (j 0).val = (j 0).val; rw [e0]; omega

theorem blk11 (c : Dev nD) (t : Fin cfg0.N) : (iblk m c 11 t : Vec Ideal S256x16 .f32) = V m c main_arg9 := by
  obtain ⟨-, -, -, -, -, -, -, -, ⟨e0, e1⟩, -⟩ := weight_idx t
  funext j
  unfold iblk
  rw [View.read_apply]
  show V m c main_arg9 _ = V m c main_arg9 j
  congr 1
  funext a
  apply Fin.ext
  match a with
  | ⟨0, _⟩ => show win0_11.index t (0 : Fin 2) * 256 + 1 * (j 0).val = (j 0).val; rw [e0]; omega
  | ⟨1, _⟩ => show win0_11.index t (1 : Fin 2) * 16 + 1 * (j 1).val = (j 1).val; rw [e1]; omega

theorem blk12 (c : Dev nD) (t : Fin cfg0.N) : (iblk m c 12 t : Vec Ideal S16 .f32) = V m c main_arg10 := by
  obtain ⟨-, -, -, -, -, -, -, -, -, e0⟩ := weight_idx t
  funext j
  unfold iblk
  rw [View.read_apply]
  show V m c main_arg10 _ = V m c main_arg10 j
  congr 1
  funext a
  apply Fin.ext
  match a with
  | ⟨0, _⟩ => show win0_12.index t (0 : Fin 1) * 16 + 1 * (j 0).val = (j 0).val; rw [e0]; omega

/-! ## The data blocks are rows `256·t …` of the data arrays -/

theorem blk0_apply (c : Dev nD) (t : Fin cfg0.N) (p : Fin 256) (s : Fin 16) (r : Fin 16384) (hr : r.val = t.val * 256 + p.val) :
    (iblk m c 0 t : Vec Ideal S256x16 .f32) (ix2 p s) = (V m c main_v0 : S16384x16.Idx → EReal) (ix2 r s) := by
  obtain ⟨e0, e1, -⟩ := data_idx t
  unfold iblk
  rw [View.read_apply]
  show V m c main_v0 _ = V m c main_v0 _
  congr 1
  funext a
  apply Fin.ext
  match a with
  | ⟨0, _⟩ => show win0_0.index t (0 : Fin 2) * 256 + 1 * p.val = r.val; rw [e0, hr]; omega
  | ⟨1, _⟩ => show win0_0.index t (1 : Fin 2) * 16 + 1 * s.val = s.val; rw [e1]; omega

theorem blk1_apply (c : Dev nD) (t : Fin cfg0.N) (p : Fin 256) (s : Fin 16) (r : Fin 16384) (hr : r.val = t.val * 256 + p.val) :
    (iblk m c 1 t : Vec Ideal S256x16 .f32) (ix2 p s) = (V m c main_v1 : S16384x16.Idx → EReal) (ix2 r s) := by
  obtain ⟨-, -, e0, e1, -⟩ := data_idx t
  unfold iblk
  rw [View.read_apply]
  show V m c main_v1 _ = V m c main_v1 _
  congr 1
  funext a
  apply Fin.ext
  match a with
  | ⟨0, _⟩ => show win0_1.index t (0 : Fin 2) * 256 + 1 * p.val = r.val; rw [e0, hr]; omega
  | ⟨1, _⟩ => show win0_1.index t (1 : Fin 2) * 16 + 1 * s.val = s.val; rw [e1]; omega

theorem blk2_apply (c : Dev nD) (t : Fin cfg0.N) (p : Fin 256) (n : Fin 32) (s : Fin 16) (r : Fin 16384)
    (hr : r.val = t.val * 256 + p.val) :
    (iblk m c 2 t : Vec Ideal S256x32x16 .f32) (ix3 p n s) = (V m c main_v3 : S16384x32x16.Idx → EReal) (ix3 r n s) := by
  obtain ⟨-, -, -, -, e0, e1, e2, -⟩ := data_idx t
  unfold iblk
  rw [View.read_apply]
  show V m c main_v3 _ = V m c main_v3 _
  congr 1
  funext a
  apply Fin.ext
  match a with
  | ⟨0, _⟩ => show win0_2.index t (0 : Fin 3) * 256 + 1 * p.val = r.val; rw [e0, hr]; omega
  | ⟨1, _⟩ => show win0_2.index t (1 : Fin 3) * 32 + 1 * n.val = n.val; rw [e1]; omega
  | ⟨2, _⟩ => show win0_2.index t (2 : Fin 3) * 16 + 1 * s.val = s.val; rw [e2]; omega

/-! ## What each point writes, and the whole array -/

/-- The row function applied row by row to the arrays as the call finds them. -/
abbrev tiled (c : Dev nD) : S16384x16.Idx → EReal :=
  result (V m c main_arg1) (V m c main_arg2) (V m c main_arg3) (V m c main_arg4) (V m c main_arg5) (V m c main_arg6)
    (V m c main_arg7) (V m c main_arg8) (V m c main_arg9) (V m c main_arg10) (V m c main_v0) (V m c main_v1) (V m c main_v3)

/-- Point `t` writes back block `t` of that array. -/
theorem flushed_eq (c : Dev nD) (t : Fin cfg0.N) :
    (dats m 0 c).flushed 13 t = ((cfg0.win 13).blk t).view.read (Elt Ideal) (tiled m c) := by
  obtain ⟨-, -, -, -, -, -, -, o0, o1⟩ := data_idx t
  have hN : cfg0.N = 64 := N_0
  rw [Value.flushed13]
  unfold out0_13
  rw [View.canon_unit_zero hz2]
  simp only [View.ld_unit_zero (S := S256x16) hz2, View.ld_unit_zero (S := S256x32x16) hz3,
    View.ld_unit_zero (S := S16x128) hz2, View.ld_unit_zero (S := S128) hz1, View.ld_unit_zero (S := S128x128) hz2,
    View.ld_unit_zero (S := S128x64) hz2, View.ld_unit_zero (S := S64) hz1, View.ld_unit_zero (S := S96x256) hz2,
    View.ld_unit_zero (S := S256) hz1, View.ld_unit_zero (S := S16) hz1]
  rw [blk3, blk4, blk5, blk6, blk7, blk8, blk9, blk10, blk11, blk12]
  funext j
  obtain ⟨p, a, rfl⟩ : ∃ (p : Fin 256) (a : Fin 16), j = ix2 p a := ⟨j 0, j 1, eq_ix2 j⟩
  have hlt : t.val * 256 + p.val < 16384 := by have := t.isLt; have := p.isLt; omega
  have hemb : ((cfg0.win 13).blk t).view.emb (ix2 p a) = ix2 (⟨t.val * 256 + p.val, hlt⟩ : Fin 16384) a := by
    funext ax
    apply Fin.ext
    match ax with
    | ⟨0, _⟩ => show win0_13.index t (0 : Fin 2) * 256 + 1 * p.val = t.val * 256 + p.val; rw [o0]; omega
    | ⟨1, _⟩ => show win0_13.index t (1 : Fin 2) * 16 + 1 * a.val = a.val; rw [o1]; omega
  refine (Cert.KernelIdeal.RowValue.body_row (iblk m c 0 t) (iblk m c 1 t) (iblk m c 2 t) (V m c main_arg1) (V m c main_arg2)
    (V m c main_arg3) (V m c main_arg4) (V m c main_arg5) (V m c main_arg6) (V m c main_arg7) (V m c main_arg8)
    (V m c main_arg9) (V m c main_arg10) p a).trans ?_
  rw [View.read_apply]
  show _ = tiled m c (((cfg0.win 13).blk t).view.emb (ix2 p a))
  rw [hemb]
  have e0 : (fun s => (iblk m c 0 t : Vec Ideal S256x16 .f32) (ix2 p s))
      = fun s => (V m c main_v0 : S16384x16.Idx → EReal) (ix2 (⟨t.val * 256 + p.val, hlt⟩ : Fin 16384) s) :=
    funext fun s => blk0_apply m c t p s _ rfl
  have e1 : (fun s => (iblk m c 1 t : Vec Ideal S256x16 .f32) (ix2 p s))
      = fun s => (V m c main_v1 : S16384x16.Idx → EReal) (ix2 (⟨t.val * 256 + p.val, hlt⟩ : Fin 16384) s) :=
    funext fun s => blk1_apply m c t p s _ rfl
  have e2 : (fun n s => (iblk m c 2 t : Vec Ideal S256x32x16 .f32) (ix3 p n s))
      = fun n s => (V m c main_v3 : S16384x32x16.Idx → EReal) (ix3 (⟨t.val * 256 + p.val, hlt⟩ : Fin 16384) n s) :=
    funext fun n => funext fun s => blk2_apply m c t p n s _ rfl
  rw [e0, e1, e2]
  rfl

/-- An index of the result array is in point `t`'s block iff each coordinate is in the block's range on its axis. -/
theorem mem_blk (t : Fin cfg0.N) (i : S16384x16.Idx) :
    i ∈ ((cfg0.win 13).blk t).view.set ↔ ∀ a : Fin 2, win0_13.index t a * S256x16.size a ≤ (i a).val
      ∧ (i a).val < win0_13.index t a * S256x16.size a + S256x16.size a := by
  show i ∈ ((View.whole main_v4).slice (win0_13.rect t)).set ↔ _
  rw [View.set_slice_whole, Rect.mem_set_unit]
  exact Iff.rfl

/-- Row `r` of the result lies in the block of point `r / 256`. -/
theorem cover (i : S16384x16.Idx) :
    ∃ t : Fin cfg0.N, (cfg0.win 13).flush t = true ∧ i ∈ ((cfg0.win 13).blk t).view.set := by
  have hi0 : (i 0).val < 16384 := (i 0).isLt
  have hi1 : (i 1).val < 16 := (i 1).isLt
  have hN : cfg0.N = 64 := N_0
  have ht : (i 0).val / 256 < cfg0.N := by rw [hN]; omega
  obtain ⟨-, -, -, -, -, -, -, o0, o1⟩ := data_idx ⟨(i 0).val / 256, ht⟩
  refine ⟨⟨(i 0).val / 256, ht⟩, flush0_13 _, ?_⟩
  rw [mem_blk]
  intro a
  match a with
  | ⟨0, _⟩ =>
    show win0_13.index ⟨(i 0).val / 256, ht⟩ (0 : Fin 2) * 256 ≤ (i 0).val
      ∧ (i 0).val < win0_13.index ⟨(i 0).val / 256, ht⟩ (0 : Fin 2) * 256 + 256
    rw [o0]
    show (i 0).val / 256 * 256 ≤ (i 0).val ∧ (i 0).val < (i 0).val / 256 * 256 + 256
    omega
  | ⟨1, _⟩ =>
    show win0_13.index ⟨(i 0).val / 256, ht⟩ (1 : Fin 2) * 16 ≤ (i 1).val
      ∧ (i 1).val < win0_13.index ⟨(i 0).val / 256, ht⟩ (1 : Fin 2) * 16 + 16
    rw [o1]
    omega

/-- So the result array ends holding the row function applied row by row. -/
theorem final (c : Dev nD) : (dats m 0 c).arrAt 13 cfg0.N = tiled m c :=
  (dats m 0 c).arrAt_eq_of_cover 13 (tiled m c) (fun t _ => flushed_eq m c t) cover

/-! ## The data arrays are the host's cuts of the state array -/

theorem V_own (c : Dev nD) : (V m c main_v0 : S16384x16.Idx → EReal)
    = extractStridedSlice S16384x16 ![0, 0] (m ((c : Thread nD τ).loc main_arg0)) slices_S16384x544_S16384x16_0_0 := by
  dsimp only [V, hostOps0]; after_results <;> rfl

theorem V_goal (c : Dev nD) : (V m c main_v1 : S16384x16.Idx → EReal)
    = extractStridedSlice S16384x16 ![0, 16] (m ((c : Thread nD τ).loc main_arg0)) slices_S16384x544_S16384x16_0_16 := by
  dsimp only [V, hostOps0]; after_results <;> rfl

theorem V_nbs (c : Dev nD) : (V m c main_v3 : S16384x32x16.Idx → EReal)
    = shapeCast S16384x32x16 (extractStridedSlice S16384x512 ![0, 32] (m ((c : Thread nD τ).loc main_arg0))
        slices_S16384x544_S16384x512_0_32) shapeCasts_S16384x512_S16384x32x16 := by
  dsimp only [V, hostOps0]; after_results <;> rfl

/-- The kernel's run: the result array at the row function of the launch contents, the arguments unchanged. -/
theorem run : θ_run defs (onTc (τ := τ) (main (F := Ideal))) ⟨m, fun _ => 0, ρ⟩ fun r => ∀ c : Dev nD,
      r.2.mem ((c : Thread nD τ).loc main_v4)
        = result (m ((c : Thread nD τ).loc main_arg1)) (m ((c : Thread nD τ).loc main_arg2))
            (m ((c : Thread nD τ).loc main_arg3)) (m ((c : Thread nD τ).loc main_arg4))
            (m ((c : Thread nD τ).loc main_arg5)) (m ((c : Thread nD τ).loc main_arg6))
            (m ((c : Thread nD τ).loc main_arg7)) (m ((c : Thread nD τ).loc main_arg8))
            (m ((c : Thread nD τ).loc main_arg9)) (m ((c : Thread nD τ).loc main_arg10))
            (extractStridedSlice S16384x16 ![0, 0] (m ((c : Thread nD τ).loc main_arg0)) slices_S16384x544_S16384x16_0_0)
            (extractStridedSlice S16384x16 ![0, 16] (m ((c : Thread nD τ).loc main_arg0)) slices_S16384x544_S16384x16_0_16)
            (shapeCast S16384x32x16 (extractStridedSlice S16384x512 ![0, 32] (m ((c : Thread nD τ).loc main_arg0))
              slices_S16384x544_S16384x512_0_32) shapeCasts_S16384x512_S16384x32x16)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans ((final m c).trans (by
      unfold tiled
      rw [V_main_arg1, V_main_arg2, V_main_arg3, V_main_arg4, V_main_arg5, V_main_arg6, V_main_arg7, V_main_arg8,
        V_main_arg9, V_main_arg10, V_own, V_goal, V_nbs])), (h c).2⟩)
    (Value.run_blocks m ρ)

end Cert.KernelIdeal.ArrayValue

end
-- ==== Proof.RefRow.lean ====
/-
  The reference program read row by row.

  The reference cuts the state array into own states, goal states and the stack of neighbour states, applies the
  per-neighbour network to the whole stack (each layer a contraction of the last axis with a weight matrix, a bias
  broadcast over the two leading axes, and for the first two layers a maximum with a zero array), adds over the neighbour
  axis, joins own states, goal states and the sums along the feature axis, and applies the last two layers. Each stage is
  read here at coordinates as the corresponding stage of the row function, one stage on top of the one before.
-/
import proofs.«178374_j89816356094668_1_alg».proof.Proof.Gen.ReferenceIdeal.Read
import proofs.«178374_j89816356094668_1_alg».proof.Proof.Layers

noncomputable section

open scoped BigOperators

namespace Cert.ReferenceIdeal.RowValue

open Cert.ReferenceIdeal Cert.ReferenceIdeal.Read Cert.SetPool Idealize.ShloMosaic Idealize.ShloMosaic.ValueIdx

variable (x0 : (⟨S16384x544, .f32⟩ : BufTy).Contents (Elt Ideal)) (x1 : (⟨S16x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal)) (x7 : (⟨S96x256, .f32⟩ : BufTy).Contents (Elt Ideal))
  (x8 : (⟨S256, .f32⟩ : BufTy).Contents (Elt Ideal)) (x9 : (⟨S256x16, .f32⟩ : BufTy).Contents (Elt Ideal))
  (x10 : (⟨S16, .f32⟩ : BufTy).Contents (Elt Ideal))

/-- The neighbour states of row `b`, as the reference's stack holds them. -/
abbrev nbRow (b : Fin 16384) : Fin 32 → Fin 16 → EReal := fun n s => val_main_v3 (F := Ideal) x0 (ix3 b n s)

/-- After the first layer and its activation. -/
theorem v8_apply (b : Fin 16384) (n : Fin 32) (k : Fin 128) :
    val_main_v8 (F := Ideal) x0 x1 x2 (ix3 b n k) = hid1 x1 x2 (nbRow x0 b n) k := by
  have el : ∀ k', lidx_main_v4 (ix3 b n k) k' = ix3 b n k' := fun k' => funext fun a => Fin.ext (by
    match a with | ⟨0, _⟩ => rfl | ⟨1, _⟩ => rfl | ⟨2, _⟩ => rfl)
  have er : ∀ k', ridx_main_v4 (ix3 b n k) k' = ix2 k' k := fun k' => funext fun a => Fin.ext (by
    match a with | ⟨0, _⟩ => rfl | ⟨1, _⟩ => rfl)
  have eb : idx_main_v5 (idx_main_v6 (ix3 b n k)) = ix1 k := funext fun a => Fin.ext (by
    match a with | ⟨0, _⟩ => rfl)
  rw [val_main_v8_apply, val_main_v7_apply, val_main_v4_apply, val_main_v6_apply, val_main_v5_apply,
    val_main_call0_v0_apply, val_main_call0_cst_apply]
  simp only [el, er, eb]
  rfl

/-- After the second layer and its activation. -/
theorem v13_apply (b : Fin 16384) (n : Fin 32) (k : Fin 128) :
    val_main_v13 (F := Ideal) x0 x1 x2 x3 x4 (ix3 b n k) = hid2 x1 x2 x3 x4 (nbRow x0 b n) k := by
  have el : ∀ k', lidx_main_v9 (ix3 b n k) k' = ix3 b n k' := fun k' => funext fun a => Fin.ext (by
    match a with | ⟨0, _⟩ => rfl | ⟨1, _⟩ => rfl | ⟨2, _⟩ => rfl)
  have er : ∀ k', ridx_main_v9 (ix3 b n k) k' = ix2 k' k := fun k' => funext fun a => Fin.ext (by
    match a with | ⟨0, _⟩ => rfl | ⟨1, _⟩ => rfl)
  have eb : idx_main_v10 (idx_main_v11 (ix3 b n k)) = ix1 k := funext fun a => Fin.ext (by
    match a with | ⟨0, _⟩ => rfl)
  rw [val_main_v13_apply, val_main_v12_apply, val_main_v9_apply, val_main_v11_apply, val_main_v10_apply,
    val_main_call1_v0_apply, val_main_call1_cst_apply]
  simp only [el, er, eb, v8_apply]
  rfl

/-- After the third layer: the per-neighbour network's output. -/
theorem v17_apply (b : Fin 16384) (n : Fin 32) (d : Fin 64) :
    val_main_v17 (F := Ideal) x0 x1 x2 x3 x4 x5 x6 (ix3 b n d) = perNeighbour x1 x2 x3 x4 x5 x6 (nbRow x0 b n) d := by
  have el : ∀ k', lidx_main_v14 (ix3 b n d) k' = ix3 b n k' := fun k' => funext fun a => Fin.ext (by
    match a with | ⟨0, _⟩ => rfl | ⟨1, _⟩ => rfl | ⟨2, _⟩ => rfl)
  have er : ∀ k', ridx_main_v14 (ix3 b n d) k' = ix2 k' d := fun k' => funext fun a => Fin.ext (by
    match a with | ⟨0, _⟩ => rfl | ⟨1, _⟩ => rfl)
  have eb : idx_main_v15 (idx_main_v16 (ix3 b n d)) = ix1 d := funext fun a => Fin.ext (by
    match a with | ⟨0, _⟩ => rfl)
  rw [val_main_v17_apply, val_main_v14_apply, val_main_v16_apply, val_main_v15_apply]
  simp only [el, er, eb, v13_apply]
  rfl

/-- The sum over the neighbour axis, from the zero word: the pooled features. -/
theorem v18_apply (b : Fin 16384) (d : Fin 64) :
    val_main_v18 (F := Ideal) x0 x1 x2 x3 x4 x5 x6 (ix2 b d) = pooled x1 x2 x3 x4 x5 x6 (nbRow x0 b) d := by
  have ei : ∀ n, idx_main_v18 (ix2 b d) n = ix3 b n d := fun n => funext fun a => Fin.ext (by
    match a with | ⟨0, _⟩ => rfl | ⟨1, _⟩ => rfl | ⟨2, _⟩ => rfl)
  rw [val_main_v18_apply, val_main_cst_apply]
  simp only [ei, v17_apply]
  show Ideal.ofBits .f32 0x00000000#32 + _ = _
  rw [Ideal.ofBits_zero_f32, zero_add]
  rfl

/-- Own states, goal states and pooled features joined: the features of row `b`. -/
theorem v19_apply (b : Fin 16384) (q : Fin 96) :
    val_main_v19 (F := Ideal) x0 x1 x2 x3 x4 x5 x6 (ix2 b q)
      = features (fun s => val_main_v0 (F := Ideal) x0 (ix2 b s)) (fun s => val_main_v1 (F := Ideal) x0 (ix2 b s))
          (pooled x1 x2 x3 x4 x5 x6 (nbRow x0 b)) q := by
  unfold val_main_v19
  refine (concat_features_apply _ _ _ _ b q).trans ?_
  simp only [v18_apply]

/-- After the first layer on the features and its activation. -/
theorem v24_apply (b : Fin 16384) (j : Fin 256) :
    val_main_v24 (F := Ideal) x0 x1 x2 x3 x4 x5 x6 x7 x8 (ix2 b j)
      = hidR x7 x8 (features (fun s => val_main_v0 (F := Ideal) x0 (ix2 b s)) (fun s => val_main_v1 (F := Ideal) x0 (ix2 b s))
          (pooled x1 x2 x3 x4 x5 x6 (nbRow x0 b))) j := by
  have el : ∀ k', lidx_main_v20 (ix2 b j) k' = ix2 b k' := fun k' => funext fun a => Fin.ext (by
    match a with | ⟨0, _⟩ => rfl | ⟨1, _⟩ => rfl)
  have er : ∀ k', ridx_main_v20 (ix2 b j) k' = ix2 k' j := fun k' => funext fun a => Fin.ext (by
    match a with | ⟨0, _⟩ => rfl | ⟨1, _⟩ => rfl)
  have eb : idx_main_v21 (idx_main_v22 (ix2 b j)) = ix1 j := funext fun a => Fin.ext (by
    match a with | ⟨0, _⟩ => rfl)
  rw [val_main_v24_apply, val_main_v23_apply, val_main_v20_apply, val_main_v22_apply, val_main_v21_apply,
    val_main_call2_v0_apply, val_main_call2_cst_apply]
  simp only [el, er, eb, v19_apply]
  rfl

/-- The last layer: row `b` of the reference's result is the row function of row `b` of its three cuts. -/
theorem v28_apply (b : Fin 16384) (a : Fin 16) :
    val_main_v28 (F := Ideal) x0 x1 x2 x3 x4 x5 x6 x7 x8 x9 x10 (ix2 b a)
      = rowOut x1 x2 x3 x4 x5 x6 x7 x8 x9 x10 (fun s => val_main_v0 (F := Ideal) x0 (ix2 b s))
          (fun s => val_main_v1 (F := Ideal) x0 (ix2 b s)) (nbRow x0 b) a := by
  have el : ∀ k', lidx_main_v25 (ix2 b a) k' = ix2 b k' := fun k' => funext fun c => Fin.ext (by
    match c with | ⟨0, _⟩ => rfl | ⟨1, _⟩ => rfl)
  have er : ∀ k', ridx_main_v25 (ix2 b a) k' = ix2 k' a := fun k' => funext fun c => Fin.ext (by
    match c with | ⟨0, _⟩ => rfl | ⟨1, _⟩ => rfl)
  have eb : idx_main_v26 (idx_main_v27 (ix2 b a)) = ix1 a := funext fun c => Fin.ext (by
    match c with | ⟨0, _⟩ => rfl)
  rw [val_main_v28_apply, val_main_v25_apply, val_main_v27_apply, val_main_v26_apply]
  simp only [el, er, eb, v24_apply]
  rfl

/-- The reference's result is the row function applied row by row to its own cuts of the state array. -/
theorem ref_eq_result :
    val_main_v28 (F := Ideal) x0 x1 x2 x3 x4 x5 x6 x7 x8 x9 x10
      = result x1 x2 x3 x4 x5 x6 x7 x8 x9 x10 (val_main_v0 (F := Ideal) x0) (val_main_v1 (F := Ideal) x0)
          (val_main_v3 (F := Ideal) x0) := by
  funext i
  obtain ⟨b, a, rfl⟩ : ∃ (b : Fin 16384) (a : Fin 16), i = ix2 b a := ⟨i 0, i 1, eq_ix2 i⟩
  exact v28_apply x0 x1 x2 x3 x4 x5 x6 x7 x8 x9 x10 b a

end Cert.ReferenceIdeal.RowValue

end
-- ==== Proof.lean ====
/-
  The kernel against its reference: a set network over 16384 rows.

  Each row of the state array holds an agent's own state, a goal state and 32 neighbour states. Both programs cut the
  array the same way, send every neighbour state through the same three affine layers (a maximum with zero after the
  first two), add the 32 outputs of a row, put the sums after the own and goal states and apply two more affine layers.
  The kernel does this 256 rows at a time, on flattened tall matrices with operands narrowed to bf16; the reference
  does it on the whole arrays at once. Over the extended reals a change of float format is the identity and a matrix
  product is, entry by entry, a finite sum of products, so both results are, row by row, one and the same function of that
  row of the state array and of the weights: the sums are the same sums in the same grouping, and no law beyond that
  reading is needed (in particular nothing is used of the inputs being finite).

  The kernel's run is read off its generated frame (every grid point writes its block of rows, the blocks cover the
  result); the reference's run is its generated list of host operations read one operation at a time.
-/
import proofs.«178374_j89816356094668_1_alg».proof.Defs
import proofs.«178374_j89816356094668_1_alg».proof.Proof.Gen.Kernel
import proofs.«178374_j89816356094668_1_alg».proof.Proof.Gen.Kernel.Skeleton
import proofs.«178374_j89816356094668_1_alg».proof.Proof.Gen.Kernel.Launch
import proofs.«178374_j89816356094668_1_alg».proof.Proof.Gen.Kernel.Points
import proofs.«178374_j89816356094668_1_alg».proof.Proof.Gen.Kernel.Frame
import proofs.«178374_j89816356094668_1_alg».proof.Proof.Gen.KernelIdeal
import proofs.«178374_j89816356094668_1_alg».proof.Proof.Gen.KernelIdeal.Skeleton
import proofs.«178374_j89816356094668_1_alg».proof.Proof.Gen.KernelIdeal.Launch
import proofs.«178374_j89816356094668_1_alg».proof.Proof.Gen.KernelIdeal.Points
import proofs.«178374_j89816356094668_1_alg».proof.Proof.Gen.KernelIdeal.Frame
import proofs.«178374_j89816356094668_1_alg».proof.Proof.Gen.ReferenceIdeal
import proofs.«178374_j89816356094668_1_alg».proof.Proof.Gen.Pre_finite_inputs
import proofs.«178374_j89816356094668_1_alg».proof.Proof.Gen.KernelIdeal.Value
import proofs.«178374_j89816356094668_1_alg».proof.Proof.Gen.ReferenceIdeal.Run
import proofs.«178374_j89816356094668_1_alg».proof.Proof.Gen.ReferenceIdeal.Read
import proofs.«178374_j89816356094668_1_alg».proof.Proof.KernelArray
import proofs.«178374_j89816356094668_1_alg».proof.Proof.RefRow
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a list of host operations: it runs, and none of them writes an argument. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at the row function applied row by row to the three cuts of the state
    array: the kernel tile by tile, the reference stage by stage. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RowValue.ref_eq_result]
  obtain ⟨a0, a1, a2, a3, a4, a5, a6, a7, a8, a9, a10⟩ := hagree c
  rw [a0, a1, a2, a3, a4, a5, a6, a7, a8, a9, a10]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
